-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000x32 : Shape := ⟨2, ![1600000, 32]⟩
abbrev S64x256 : Shape := ⟨2, ![64, 256]⟩
abbrev S64 : Shape := ⟨1, ![64]⟩
abbrev S64x32 : Shape := ⟨2, ![64, 32]⟩
abbrev S64x128 : Shape := ⟨2, ![64, 128]⟩
abbrev S256x64 : Shape := ⟨2, ![256, 64]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S64x128 : S_.BroadcastsInDim S64x128 (![] : Fin 0 → Fin S64x128.rank)
  reducesTo_S64x128_S_d0_1 : S64x128.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S64 .f32) (main_arg9 : FVec F S256x64 .f32) (main_arg10 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S64x32 .f32) (main_arg6 : FVec F S64 .f32) (main_arg7 : FVec F S64x128 .f32) (main_arg8 : FVec F S64 .f32) (main_arg9 : FVec F S256x64 .f32) (main_arg10 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x1600000 32) (main_arg2 : FVec F S1600000x32 .f32) (main_arg3 : FVec F S64x256 .f32) (main_arg4 : FVec F S64 .f32) (main_arg5 : FVec F S64x32 .f32) (main_arg6 : FVec F S64 .f32) (main_arg7 : FVec F S64x128 .f32) (main_arg8 : FVec F S64 .f32) (main_arg9 : FVec F S256x64 .f32) (main_arg10 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x1600000 : Shape := ⟨2, ![2, 1600000]⟩
abbrev S1600000x32 : Shape := ⟨2, ![1600000, 32]⟩
abbrev S64x256 : Shape := ⟨2, ![64, 256]⟩
abbrev S64 : Shape := ⟨1, ![64]⟩
abbrev S64x32 : Shape := ⟨2, ![64, 32]⟩
abbrev S64x128 : Shape := ⟨2, ![64, 128]⟩
abbrev S256x64 : Shape := ⟨2, ![256, 64]⟩
abbrev S256 : Shape := ⟨1, ![256]⟩
abbrev S1x64 : Shape := ⟨2, ![1, 64]⟩
abbrev S1600000x64 : Shape := ⟨2, ![1600000, 64]⟩
abbrev S16000x32 : Shape := ⟨2, ![16000, 32]⟩
abbrev S16000x64 : Shape := ⟨2, ![16000, 64]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S50000x64 : Shape := ⟨2, ![50000, 64]⟩
abbrev S1600000x1 : Shape := ⟨2, ![1600000, 1]⟩
abbrev S50000 : Shape := ⟨1, ![50000]⟩
abbrev S50000x1 : Shape := ⟨2, ![50000, 1]⟩
abbrev S1x256 : Shape := ⟨2, ![1, 256]⟩
abbrev S2000x256 : Shape := ⟨2, ![2000, 256]⟩
abbrev S2000x64 : Shape := ⟨2, ![2000, 64]⟩
abbrev S2000x128 : Shape := ⟨2, ![2000, 128]⟩
abbrev S128x64 : Shape := ⟨2, ![128, 64]⟩

abbrev nBuf : Space → Nat
  | .hbm => 35
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x32, .f32⟩
  | .hbm, ⟨3, _⟩ => ⟨S64x256, .f32⟩
  | .hbm, ⟨4, _⟩ => ⟨S64, .f32⟩
  | .hbm, ⟨5, _⟩ => ⟨S64x32, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S256x64, .f32⟩
  | .hbm, ⟨10, _⟩ => ⟨S256, .f32⟩
  | .hbm, ⟨11, _⟩ => ⟨S1x64, .f32⟩
  | .hbm, ⟨12, _⟩ => ⟨S1600000x64, .f32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S50000x64, .f32⟩
  | .hbm, ⟨17, _⟩ => ⟨S1600000x1, .i32⟩
  | .hbm, ⟨18, _⟩ => ⟨S50000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x64, .f32⟩
  | .hbm, ⟨30, _⟩ => ⟨S50000x64, .f32⟩
  | .hbm, ⟨31, _⟩ => ⟨S1x64, .f32⟩
  | .hbm, ⟨32, _⟩ => ⟨S1x64, .f32⟩
  | .hbm, ⟨33, _⟩ => ⟨S1x256, .f32⟩
  | .hbm, ⟨34, _⟩ => ⟨S50000x256, .f32⟩
  | .local _ .vmem, ⟨0, _⟩ => ⟨S16000x32, .f32⟩
  | .local _ .vmem, ⟨1, _⟩ => ⟨S16000x32, .f32⟩
  | .local _ .vmem, ⟨2, _⟩ => ⟨S64x32, .f32⟩
  | .local _ .vmem, ⟨3, _⟩ => ⟨S1x64, .f32⟩
  | .local _ .vmem, ⟨4, _⟩ => ⟨S16000x64, .f32⟩
  | .local _ .vmem, ⟨5, _⟩ => ⟨S16000x64, .f32⟩
  | .local _ .vmem, ⟨6, _⟩ => ⟨S2000x256, .f32⟩
  | .local _ .vmem, ⟨7, _⟩ => ⟨S2000x256, .f32⟩
  | .local _ .vmem, ⟨8, _⟩ => ⟨S2000x64, .f32⟩
  | .local _ .vmem, ⟨9, _⟩ => ⟨S2000x64, .f32⟩
  | .local _ .vmem, ⟨10, _⟩ => ⟨S64x256, .f32⟩
  | .local _ .vmem, ⟨11, _⟩ => ⟨S1x64, .f32⟩
  | .local _ .vmem, ⟨12, _⟩ => ⟨S64x128, .f32⟩
  | .local _ .vmem, ⟨13, _⟩ => ⟨S1x64, .f32⟩
  | .local _ .vmem, ⟨14, _⟩ => ⟨S256x64, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S64_S1x64 : S64.ShapeCasts S1x64
  inb_S16000x32_S16000x32_0_0 : ∀ a, (![0, 0] : Fin 2 → Nat) a + S16000x32.size a ≤ S16000x32.size a
  h_S16000x32 : 0 < S16000x32.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  slices_S2x1600000_S1x1600000_0_0 : S2x1600000.Slices ![0, 0] S1x1600000
  shapeCasts_S1x1600000_S1600000 : S1x1600000.ShapeCasts S1600000
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  broadcasts_S1x64_S2000x64 : S1x64.Broadcasts S2000x64
  concatenates_S2000x64_S2000x64_S2000x128_d1 : Shape.Concatenates [S2000x64, S2000x64] S2000x128 1
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S256x64_S256x64_0_0 : ∀ a, (![0, 0] : Fin 2 → Nat) a + S256x64.size a ≤ S256x64.size a
  h_S256x64 : 0 < S256x64.numel
  transposes_S256x64_p1_0_S64x256 : S256x64.Transposes [1, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S16000x32_S32x64_S16000x64_1_0_0_1_n_n_wf : DotDims.WF S16000x32 S32x64 S16000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S2000x256_S256x64_S2000x64_1_0_0_1_n_n_wf : DotDims.WF S2000x256 S256x64 S2000x64 [1] [0] [0] [1] [] []
  dot_S2000x128_S128x64_S2000x64_1_0_0_1_n_n_wf : DotDims.WF S2000x128 S128x64 S2000x64 [1] [0] [0] [1] [] []
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S1600000x32.size a
  hwx0_0 : ∀ i : grid0.Coords, EltTy.bits .f32 = 32 ∨ (Rect.block (s := S1600000x32) S16000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x64.size a ≤ S1600000x64.size a
  hwx0_3 : ∀ i : grid0.Coords, EltTy.bits .f32 = 32 ∨ (Rect.block (s := S1600000x64) S16000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .f32 = 32 ∨ (Rect.block (s := S256x64) S256x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)

variable [Facts₀]

def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_arg2) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000x32 : Shape := ⟨2, ![1600000, 32]⟩
abbrev S64x256 : Shape := ⟨2, ![64, 256]⟩
abbrev S64 : Shape := ⟨1, ![64]⟩
abbrev S64x32 : Shape := ⟨2, ![64, 32]⟩
abbrev S64x128 : Shape := ⟨2, ![64, 128]⟩
abbrev S256x64 : Shape := ⟨2, ![256, 64]⟩
abbrev S256 : Shape := ⟨1, ![256]⟩
abbrev S50000x64 : Shape := ⟨2, ![50000, 64]⟩
abbrev S1x64 : Shape := ⟨2, ![1, 64]⟩
abbrev S_ : Shape := ⟨0, ![]⟩
abbrev S32x64 : Shape := ⟨2, ![32, 64]⟩
abbrev S1600000x64 : Shape := ⟨2, ![1600000, 64]⟩
abbrev S1x1600000 : Shape := ⟨2, ![1, 1600000]⟩
abbrev S1600000 : Shape := ⟨1, ![1600000]⟩
abbrev S1600000x1 : Shape := ⟨2, ![1600000, 1]⟩
abbrev S50000 : Shape := ⟨1, ![50000]⟩
abbrev S50000x1 : Shape := ⟨2, ![50000, 1]⟩
abbrev S50000x128 : Shape := ⟨2, ![50000, 128]⟩
abbrev S128x64 : Shape := ⟨2, ![128, 64]⟩
abbrev S1x256 : Shape := ⟨2, ![1, 256]⟩

abbrev nBuf : Space → Nat
  | .hbm => 60
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x32, .f32⟩
  | .hbm, ⟨3, _⟩ => ⟨S64x256, .f32⟩
  | .hbm, ⟨4, _⟩ => ⟨S64, .f32⟩
  | .hbm, ⟨5, _⟩ => ⟨S64x32, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S256x64, .f32⟩
  | .hbm, ⟨10, _⟩ => ⟨S256, .f32⟩
  | .hbm, ⟨11, _⟩ => ⟨S256x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S_, .f32⟩
  | .hbm, ⟨17, _⟩ => ⟨S50000x64, .f32⟩
  | .hbm, ⟨18, _⟩ => ⟨S50000x64, .f32⟩
  | .hbm, ⟨19, _⟩ => ⟨S32x64, .f32⟩
  | .hbm, ⟨20, _⟩ => ⟨S1600000x64, .f32⟩
  | .hbm, ⟨21, _⟩ => ⟨S1x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S1600000x64, .f32⟩
  | .hbm, ⟨26, _⟩ => ⟨S1600000x64, .f32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S50000x64, .f32⟩
  | .hbm, ⟨31, _⟩ => ⟨S1600000x1, .i32⟩
  | .hbm, ⟨32, _⟩ => ⟨S50000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S50000, .f32⟩
  | .hbm, ⟨37, _⟩ => ⟨S1600000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S50000x128, .f32⟩
  | .hbm, ⟨46, _⟩ => ⟨S128x64, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .f32⟩
  | .hbm, ⟨54, _⟩ => ⟨S64x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_cst : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x32_S32x64_1_0 : S64x32.Transposes [1, 0] S32x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  transposes_S256x64_S64x256_1_0 : S256x64.Transposes [1, 0] S64x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x64_S50000x64_1_0_0_1_n_n_wf : DotDims.WF S50000x256 S256x64 S50000x64 [1] [0] [0] [1] [] []
  dot_S1600000x32_S32x64_S1600000x64_1_0_0_1_n_n_wf : DotDims.WF S1600000x32 S32x64 S1600000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []
  dot_S50000x64_S64x256_S50000x256_1_0_0_1_n_n_wf : DotDims.WF S50000x64 S64x256 S50000x256 [1] [0] [0] [1] [] []

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf

class Facts : Prop extends Facts₀ where

variable [Facts]
-- ==== Proof.Spec.lean ====
import proofs.«106499_j30674656428557_1_alg».proof.Proof.Gen.ReferenceIdeal
import Idealize.ShloMosaic.PureOps.Ideal

/-!
What the program computes, as whole-array functions over the extended reals, in the spelling of the
reference's own operations.

* `timeFeat`: every edge's attribute row times `W_timeᵀ`, plus the bias row, rectified: an array of one row per edge.
* `nodeTime`: the mean over the edges leaving a node of their `timeFeat` rows — the scatter-sum of the rows at the
  edges' source nodes, divided row by row by the number of such edges (at least one).
* `nodeFeat`: every node's feature row times `W_downᵀ`, plus the bias row, rectified.
* `fusion`: `[nodeFeat | nodeTime]` times `W_fusionᵀ`, plus bias, rectified; times `W_upᵀ`, plus bias; plus the
  node's own feature row.
-/

noncomputable section

namespace Cert.Spec

open Idealize.ShloMosaic Cert.ReferenceIdeal Cert.ReferenceIdeal.Gen

/-- `relu (edge_attr · W_timeᵀ + b_time)`, one row per edge. -/
def timeFeat (ea : FVec Ideal S1600000x32 .f32) (wt : FVec Ideal S64x32 .f32) (bt : FVec Ideal S64 .f32) : FVec Ideal S1600000x64 .f32 :=
  (maximumf (addf (Host.dotGeneral dot_S1600000x32_S32x64_S1600000x64_1_0_0_1_n_n none ea (transpose S32x64 [1, 0] wt transposes_S64x32_S32x64_1_0)) (broadcastInDim S1600000x64 ![0, 1] bcast_S1x64_S1600000x64_0_1 (broadcastInDim S1x64 ![1] bcast_S64_S1x64_1 bt))) (broadcastInDim S1600000x64 ![] bcast_S_S1600000x64 (constant (F := Ideal) S_ .f32 0x00000000#32)))

/-- The per-node mean of the edge rows `tf` over the edges whose source (row 0 of `ei`) is the node: their sum
    divided by `max(count, 1)`. -/
def nodeTime (ei : Vec Ideal S2x1600000 .i32) (tf : FVec Ideal S1600000x64 .f32) : FVec Ideal S50000x64 .f32 :=
  (Host.divf (Host.scatterAdd scatter_S50000x64_S1600000x1_S1600000x64_1_0_0_1 (broadcastInDim S50000x64 ![] bcast_S_S50000x64 (constant (F := Ideal) S_ .f32 0x00000000#32)) (broadcastInDim S1600000x1 ![0] bcast_S1600000_S1600000x1_0 (shapeCast _ (extractStridedSlice S1x1600000 ![0, 0] ei slices_S2x1600000_S1x1600000_0_0) shapeCasts_S1x1600000_S1600000)) tf) (broadcastInDim S50000x64 ![0, 1] bcast_S50000x1_S50000x64_0_1 (broadcastInDim S50000x1 ![0] bcast_S50000_S50000x1_0 (maximumf (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 (shapeCast _ (extractStridedSlice S1x1600000 ![0, 0] ei slices_S2x1600000_S1x1600000_0_0) shapeCasts_S1x1600000_S1600000)) (broadcastInDim S1600000 ![] bcast_S_S1600000 (constant (F := Ideal) S_ .f32 0x3F800000#32))) (broadcastInDim S50000 ![] bcast_S_S50000 (constant (F := Ideal) S_ .f32 0x3F800000#32))))))

/-- `relu (x · W_downᵀ + b_down)`, one row per node. -/
def nodeFeat (x : FVec Ideal S50000x256 .f32) (wd : FVec Ideal S64x256 .f32) (bd : FVec Ideal S64 .f32) : FVec Ideal S50000x64 .f32 :=
  (maximumf (addf (Host.dotGeneral dot_S50000x256_S256x64_S50000x64_1_0_0_1_n_n none x (transpose S256x64 [1, 0] wd transposes_S64x256_S256x64_1_0)) (broadcastInDim S50000x64 ![0, 1] bcast_S1x64_S50000x64_0_1 (broadcastInDim S1x64 ![1] bcast_S64_S1x64_1 bd))) (broadcastInDim S50000x64 ![] bcast_S_S50000x64 (constant (F := Ideal) S_ .f32 0x00000000#32)))

/-- `x + (relu ([nodeFeat | nt] · W_fusionᵀ + b_fusion) · W_upᵀ + b_up)`, one row per node. -/
def fusion (x : FVec Ideal S50000x256 .f32) (nt : FVec Ideal S50000x64 .f32) (wd : FVec Ideal S64x256 .f32) (bd : FVec Ideal S64 .f32)
    (wf : FVec Ideal S64x128 .f32) (bf : FVec Ideal S64 .f32) (wu : FVec Ideal S256x64 .f32) (bu : FVec Ideal S256 .f32) : FVec Ideal S50000x256 .f32 :=
  addf x (addf (Host.dotGeneral dot_S50000x64_S64x256_S50000x256_1_0_0_1_n_n none (maximumf (addf (Host.dotGeneral dot_S50000x128_S128x64_S50000x64_1_0_0_1_n_n none (concatenate S50000x128 1 [⟨S50000x64, (nodeFeat x wd bd)⟩, ⟨S50000x64, nt⟩] concatenates_S50000x64_S50000x64_S50000x128_d1) (transpose S128x64 [1, 0] wf transposes_S64x128_S128x64_1_0)) (broadcastInDim S50000x64 ![0, 1] bcast_S1x64_S50000x64_0_1 (broadcastInDim S1x64 ![1] bcast_S64_S1x64_1 bf))) (broadcastInDim S50000x64 ![] bcast_S_S50000x64 (constant (F := Ideal) S_ .f32 0x00000000#32))) (transpose S64x256 [1, 0] wu transposes_S256x64_S64x256_1_0)) (broadcastInDim S50000x256 ![0, 1] bcast_S1x256_S50000x256_0_1 (broadcastInDim S1x256 ![1] bcast_S256_S1x256_1 bu)))

/-- The whole program: the fusion of every node's row with the mean of its outgoing edges' projected rows. -/
def result (x : FVec Ideal S50000x256 .f32) (ei : Vec Ideal S2x1600000 .i32) (ea : FVec Ideal S1600000x32 .f32)
    (wd : FVec Ideal S64x256 .f32) (bd : FVec Ideal S64 .f32) (wt : FVec Ideal S64x32 .f32) (bt : FVec Ideal S64 .f32)
    (wf : FVec Ideal S64x128 .f32) (bf : FVec Ideal S64 .f32) (wu : FVec Ideal S256x64 .f32) (bu : FVec Ideal S256 .f32) : FVec Ideal S50000x256 .f32 :=
  fusion x (nodeTime ei (timeFeat ea wt bt)) wd bd wf bf wu bu

end Cert.Spec

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Region0.lean ====
import proofs.«106499_j30674656428557_1_alg».proof.Proof.Gen.KernelIdeal.Frame
import proofs.«106499_j30674656428557_1_alg».proof.Proof.LibRowBlock
import proofs.«106499_j30674656428557_1_alg».proof.Proof.Spec
import Idealize.ShloMosaic.Lib.Pipeline.Value
import Idealize.ShloMosaic.Lib.ValueIdx

/-!
The first region: the edge rows' projection.

The grid has 100 points; point `t` is handed rows `16000·t … 16000·t + 15999` of the edge attributes, the whole of
`W_time` and the bias row, and writes rows `16000·t …` of the result. Every operation of the body treats rows
independently (a product with a matrix on the right, a bias row added to every row, a rectifier), so what point `t`
writes is that row block of `Spec.timeFeat` of the whole arrays; the 100 blocks tile the result's 1 600 000 rows.
-/

set_option maxRecDepth 16384

noncomputable section

namespace Cert.KernelIdeal.TimeProj

open Cert.KernelIdeal Cert.KernelIdeal.Gen Cert.RowBlock
open Idealize.ShloMosaic Idealize.ShloMosaic.TcCoe Idealize.ShloMosaic.ValueIdx Idealize.SL.Sem
open Idealize.ShloMosaic.Pipeline (Dat Cfg Window)

theorem zero_offsets : (![0, 0] : Fin 2 → Nat) = fun _ => 0 := funext fun a => by fin_cases a <;> rfl

/-- A bias row that reaches the body already laid out as a one-row matrix: broadcast over a block's rows it is the row
    block of the bias broadcast over all rows. -/
theorem bias_rows {N n B t : Nat} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hcc : (⟨2, ![1, n]⟩ : Shape).ShapeCasts ⟨2, ![1, n]⟩)
    (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ (shapeCast ⟨2, ![1, n]⟩ b hc) hcc) hb) := by
  rw [shapeCast_self]
  exact IsRows.bias b h1 h2 hc hb

/-- The body's arithmetic sends the row block of the edge attributes to the row block of `Spec.timeFeat`. -/
theorem body_rows (t : Nat) (ea : FVec Ideal S1600000x32 .f32) (wt : FVec Ideal S64x32 .f32) (bt : FVec Ideal S64 .f32)
    (x0 : Vec Ideal S16000x32 .f32) (x1 : Vec Ideal S64x32 .f32) (x2 : Vec Ideal S1x64 .f32)
    (h0 : IsRows 16000 t ea x0) (h1 : x1 = wt) (h2 : x2 = shapeCast S1x64 bt shapeCasts_S64_S1x64) :
    IsRows 16000 t (Spec.timeFeat ea wt bt) (k0_pay1 x0 x1 x2) := by
  subst h1 h2
  unfold Spec.timeFeat k0_pay1
  exact (((h0.trunc _).dot _ _ ⟨rfl, rfl, rfl, rfl, rfl, rfl⟩ ⟨rfl, rfl, rfl, rfl, rfl, rfl⟩ _ _ (fun _ _ => rfl)).add
    (bias_rows bt _ _ _ _ _)).maxf (IsRows.splat .f32 _ _)

variable (V : (c : Dev nD) → (b : Ref sig .tc) → Buf (Elt Ideal) ((c : Thread nD τ).loc b))

/-- The index maps over the grid: the streamed windows are at block `t` of the rows, the others at block 0. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem npoints : cfg0.N = 100 := N_0

/-- Point `t`'s block of the edge attributes is their row block `t`. -/
theorem blk_ea (c : Dev nD) (t : Fin cfg0.N) :
    IsRows 16000 t.val (V c main_arg2 : FVec Ideal S1600000x32 .f32) (iblk0 V c 0 t) := by
  intro p j r hr
  obtain ⟨e0, e1, -⟩ := idx t
  show V c main_arg2 (((cfg0.win 0).blk t).view.emb (ix2 p j)) = V c main_arg2 (ix2 r j)
  congr 1
  funext a; apply Fin.ext
  match a with
  | ⟨0, _⟩ => show win0_0.index t (0 : Fin 2) * 16000 + 1 * p.val = r.val; omega
  | ⟨1, _⟩ => show win0_0.index t (1 : Fin 2) * 32 + 1 * j.val = j.val; omega

/-- Every point's block of `W_time` is the whole matrix. -/
theorem blk_wt (c : Dev nD) (t : Fin cfg0.N) : iblk0 V c 1 t = (V c main_arg5 : FVec Ideal S64x32 .f32) := by
  obtain ⟨-, -, e2, e3, -⟩ := idx t
  funext y
  show V c main_arg5 (((cfg0.win 1).blk t).view.emb y) = V c main_arg5 y
  congr 1
  funext a; apply Fin.ext
  match a with
  | ⟨0, _⟩ => show win0_1.index t (0 : Fin 2) * 64 + 1 * (y 0).val = (y 0).val; omega
  | ⟨1, _⟩ => show win0_1.index t (1 : Fin 2) * 32 + 1 * (y 1).val = (y 1).val; omega

/-- Every point's block of the bias row is the whole row. -/
theorem blk_bt (c : Dev nD) (t : Fin cfg0.N) : iblk0 V c 2 t = (V c main_v0 : FVec Ideal S1x64 .f32) := by
  obtain ⟨-, -, -, -, e4, e5, -⟩ := idx t
  funext y
  show V c main_v0 (((cfg0.win 2).blk t).view.emb y) = V c main_v0 y
  congr 1
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point `t` writes back is its block of `Spec.timeFeat` of the arrays the region finds. -/
theorem flushed_eq (c : Dev nD) (bt : FVec Ideal S64 .f32)
    (hb : (V c main_v0 : FVec Ideal S1x64 .f32) = shapeCast S1x64 bt shapeCasts_S64_S1x64) (t : Fin cfg0.N) :
    (dat0 V c).flushed 3 t
      = ((cfg0.win 3).blk t).view.read (Elt Ideal) (Spec.timeFeat (V c main_arg2) (V c main_arg5) bt) := by
  show (cfg0.win 3).cut (grid0.coords t) ((dat0 V c).after 3 t) = _
  rw [after0_3]
  unfold out0_3
  rw [View.canon_unit_zero zero_offsets]
  simp only [View.ld_unit_zero (S := S16000x32) zero_offsets, View.ld_unit_zero (S := S64x32) zero_offsets,
    View.ld_unit_zero (S := S1x64) zero_offsets]
  funext y
  obtain ⟨p, q, rfl⟩ : ∃ (p : Fin 16000) (q : Fin 64), y = ix2 p q := ⟨y 0, y 1, eq_ix2 y⟩
  have ht : t.val < 100 := npoints ▸ t.isLt
  have hr : 16000 * t.val + p.val < 1600000 := by have := p.isLt; omega
  obtain ⟨-, -, -, -, -, -, e6, e7⟩ := idx t
  show k0_pay1 (iblk0 V c 0 t) (iblk0 V c 1 t) (iblk0 V c 2 t) (ix2 p q)
    = Spec.timeFeat (V c main_arg2) (V c main_arg5) bt (((cfg0.win 3).blk t).view.emb (ix2 p q))
  refine (body_rows t.val (V c main_arg2) (V c main_arg5) bt (iblk0 V c 0 t) (iblk0 V c 1 t) (iblk0 V c 2 t)
    (blk_ea V c t) (blk_wt V c t) ((blk_bt V c t).trans hb) p q ⟨16000 * t.val + p.val, hr⟩ rfl).trans ?_
  congr 1
  funext a; apply Fin.ext
  match a with
  | ⟨0, _⟩ => show 16000 * t.val + p.val = win0_3.index t (0 : Fin 2) * 16000 + 1 * p.val; omega
  | ⟨1, _⟩ => show q.val = win0_3.index t (1 : Fin 2) * 64 + 1 * q.val; omega

/-- An index of the result is in point `t`'s block iff each coordinate is in the block's range. -/
theorem mem_blk (t : Fin cfg0.N) (i : S1600000x64.Idx) :
    i ∈ ((cfg0.win 3).blk t).view.set ↔ ∀ a : Fin 2, win0_3.index t a * S16000x64.size a ≤ (i a).val ∧ (i a).val < win0_3.index t a * S16000x64.size a + S16000x64.size a := by
  show i ∈ ((View.whole main_v1).slice (win0_3.rect t)).set ↔ _
  rw [View.set_slice_whole, Rect.mem_set_unit]
  exact Iff.rfl

/-- Row `r` of the result is in the block of point `r / 16000`. -/
theorem cover (i : S1600000x64.Idx) : ∃ t : Fin cfg0.N, (cfg0.win 3).flush t = true ∧ i ∈ ((cfg0.win 3).blk t).view.set := by
  have hi0 : (i 0).val < 1600000 := (i 0).isLt
  have hi1 : (i 1).val < 64 := (i 1).isLt
  have hN : (i 0).val / 16000 < cfg0.N := by rw [npoints]; omega
  refine ⟨⟨(i 0).val / 16000, hN⟩, flush0_3 _, ?_⟩
  rw [mem_blk]
  obtain ⟨-, -, -, -, -, -, e6, e7⟩ := idx ⟨(i 0).val / 16000, hN⟩
  intro a
  match a with
  | ⟨0, _⟩ =>
    show win0_3.index ⟨(i 0).val / 16000, hN⟩ (0 : Fin 2) * 16000 ≤ (i 0).val ∧ (i 0).val < win0_3.index ⟨(i 0).val / 16000, hN⟩ (0 : Fin 2) * 16000 + 16000
    rw [e6]; show (i 0).val / 16000 * 16000 ≤ (i 0).val ∧ (i 0).val < (i 0).val / 16000 * 16000 + 16000; omega
  | ⟨1, _⟩ =>
    show win0_3.index ⟨(i 0).val / 16000, hN⟩ (1 : Fin 2) * 64 ≤ (i 1).val ∧ (i 1).val < win0_3.index ⟨(i 0).val / 16000, hN⟩ (1 : Fin 2) * 64 + 64
    rw [e7]; omega

/-- After the region the result array holds `Spec.timeFeat` of the arrays the region found. -/
theorem final (c : Dev nD) (bt : FVec Ideal S64 .f32)
    (hb : (V c main_v0 : FVec Ideal S1x64 .f32) = shapeCast S1x64 bt shapeCasts_S64_S1x64) :
    (dat0 V c).arrAt 3 cfg0.N = Spec.timeFeat (V c main_arg2) (V c main_arg5) bt :=
  (dat0 V c).arrAt_eq_of_cover 3 _ (fun t _ => flushed_eq V c bt hb t) cover

end Cert.KernelIdeal.TimeProj

end
-- ==== Proof.Region1.lean ====
import proofs.«106499_j30674656428557_1_alg».proof.Proof.Gen.KernelIdeal.Frame
import proofs.«106499_j30674656428557_1_alg».proof.Proof.LibRowBlock
import proofs.«106499_j30674656428557_1_alg».proof.Proof.Spec
import proofs.«106499_j30674656428557_1_alg».proof.Proof.Region0
import Idealize.ShloMosaic.Lib.Pipeline.Value
import Idealize.ShloMosaic.Lib.ValueIdx

/-!
The second region: the fusion of every node's row with its mean edge row.

The grid has 25 points; point `t` is handed rows `2000·t … 2000·t + 1999` of the node features and of the per-node
means, the whole of the three weight matrices and the three bias rows, and writes rows `2000·t …` of the result.
Every operation of the body treats rows independently (three products with a matrix on the right, bias rows,
rectifiers, two matrices set side by side, a sum with the node's own row), so what point `t` writes is that row block
of `Spec.fusion` of the whole arrays; the 25 blocks tile the result's 50 000 rows.
-/

set_option maxRecDepth 16384

noncomputable section

namespace Cert.KernelIdeal.Fusion

open Cert.KernelIdeal Cert.KernelIdeal.Gen Cert.RowBlock Cert.KernelIdeal.TimeProj
open Idealize.ShloMosaic Idealize.ShloMosaic.TcCoe Idealize.ShloMosaic.ValueIdx Idealize.SL.Sem
open Idealize.ShloMosaic.Pipeline (Dat Cfg Window)

/-- A row block recast to its own shape is the same row block. -/
theorem rows_cast_self {N n B t : Nat} {A : (⟨2, ![N, n]⟩ : Shape).Idx → EReal} {a : (⟨2, ![B, n]⟩ : Shape).Idx → EReal}
    (H : IsRows B t A a) (h : (⟨2, ![B, n]⟩ : Shape).ShapeCasts ⟨2, ![B, n]⟩) : IsRows B t A (shapeCast ⟨2, ![B, n]⟩ a h) := by
  rw [shapeCast_self]; exact H

/-- The body's arithmetic sends the row blocks of the node features and of the per-node means to the row block of
    `Spec.fusion`. -/
theorem body_rows (t : Nat) (x : FVec Ideal S50000x256 .f32) (nt : FVec Ideal S50000x64 .f32)
    (wd : FVec Ideal S64x256 .f32) (bd : FVec Ideal S64 .f32) (wf : FVec Ideal S64x128 .f32) (bf : FVec Ideal S64 .f32)
    (wu : FVec Ideal S256x64 .f32) (bu : FVec Ideal S256 .f32)
    (x0 : Vec Ideal S2000x256 .f32) (x1 : Vec Ideal S2000x64 .f32) (x2 : Vec Ideal S64x256 .f32) (x3 : Vec Ideal S1x64 .f32)
    (x4 : Vec Ideal S64x128 .f32) (x5 : Vec Ideal S1x64 .f32) (x6 : Vec Ideal S256x64 .f32) (x7 : Vec Ideal S1x256 .f32)
    (h0 : IsRows 2000 t x x0) (h1 : IsRows 2000 t nt x1) (h2 : x2 = wd) (h3 : x3 = shapeCast S1x64 bd shapeCasts_S64_S1x64)
    (h4 : x4 = wf) (h5 : x5 = shapeCast S1x64 bf shapeCasts_S64_S1x64) (h6 : x6 = wu)
    (h7 : x7 = shapeCast S1x256 bu shapeCasts_S256_S1x256) :
    IsRows 2000 t (Spec.fusion x nt wd bd wf bf wu bu) (k1_pay1 x0 x1 x2 x3 x4 x5 x6 x7) := by
  subst h2 h3 h4 h5 h6 h7
  unfold Spec.fusion Spec.nodeFeat k1_pay1
  exact h0.add
    ((((((((IsRows.concat2
        ((((h0.trunc _).dot _ _ ⟨rfl, rfl, rfl, rfl, rfl, rfl⟩ ⟨rfl, rfl, rfl, rfl, rfl, rfl⟩ _ _ (fun _ _ => rfl)).add
          (bias_rows bd _ _ _ _ _)).maxf (IsRows.splat .f32 _ _))
        (rows_cast_self h1 _) rfl _ _).trunc _).dot _ _ ⟨rfl, rfl, rfl, rfl, rfl, rfl⟩ ⟨rfl, rfl, rfl, rfl, rfl, rfl⟩ _ _ (fun _ _ => rfl)).add
          (bias_rows bf _ _ _ _ _)).maxf (IsRows.splat .f32 _ _)).trunc _).dot _ _ ⟨rfl, rfl, rfl, rfl, rfl, rfl⟩ ⟨rfl, rfl, rfl, rfl, rfl, rfl⟩ _ _ (fun _ _ => rfl)).add
      (bias_rows bu _ _ _ _ _))

variable (V : (c : Dev nD) → (b : Ref sig .tc) → Buf (Elt Ideal) ((c : Thread nD τ).loc b))

/-- The index maps over the grid: the streamed windows are at block `t` of the rows, the others at block 0. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem npoints : cfg1.N = 25 := N_1

/-- Point `t`'s block of the node features is their row block `t`. -/
theorem blk_x (c : Dev nD) (t : Fin cfg1.N) :
    IsRows 2000 t.val (V c main_arg0 : FVec Ideal S50000x256 .f32) (iblk1 V c 0 t) := by
  intro p j r hr
  have e := idx t
  show V c main_arg0 (((cfg1.win 0).blk t).view.emb (ix2 p j)) = V c main_arg0 (ix2 r j)
  congr 1
  funext a; apply Fin.ext
  match a with
  | ⟨0, _⟩ => show win1_0.index t (0 : Fin 2) * 2000 + 1 * p.val = r.val; omega
  | ⟨1, _⟩ => show win1_0.index t (1 : Fin 2) * 256 + 1 * j.val = j.val; omega

/-- Point `t`'s block of the per-node means is their row block `t`. -/
theorem blk_nt (c : Dev nD) (t : Fin cfg1.N) :
    IsRows 2000 t.val (V c main_v15 : FVec Ideal S50000x64 .f32) (iblk1 V c 1 t) := by
  intro p j r hr
  have e := idx t
  show V c main_v15 (((cfg1.win 1).blk t).view.emb (ix2 p j)) = V c main_v15 (ix2 r j)
  congr 1
  funext a; apply Fin.ext
  match a with
  | ⟨0, _⟩ => show win1_1.index t (0 : Fin 2) * 2000 + 1 * p.val = r.val; omega
  | ⟨1, _⟩ => show win1_1.index t (1 : Fin 2) * 64 + 1 * j.val = j.val; omega

/-- Every point's block of `W_down` is the whole matrix. -/
theorem blk_wd (c : Dev nD) (t : Fin cfg1.N) : iblk1 V c 2 t = (V c main_arg3 : FVec Ideal S64x256 .f32) := by
  have e := idx t
  funext y
  show V c main_arg3 (((cfg1.win 2).blk t).view.emb y) = V c main_arg3 y
  congr 1
  funext a; apply Fin.ext
  match a with
  | ⟨0, _⟩ => show win1_2.index t (0 : Fin 2) * 64 + 1 * (y 0).val = (y 0).val; omega
  | ⟨1, _⟩ => show win1_2.index t (1 : Fin 2) * 256 + 1 * (y 1).val = (y 1).val; omega

/-- Every point's block of the down-projection's bias row is the whole row. -/
theorem blk_bd (c : Dev nD) (t : Fin cfg1.N) : iblk1 V c 3 t = (V c main_v16 : FVec Ideal S1x64 .f32) := by
  have e := idx t
  funext y
  show V c main_v16 (((cfg1.win 3).blk t).view.emb y) = V c main_v16 y
  congr 1
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Every point's block of `W_fusion` is the whole matrix. -/
theorem blk_wf (c : Dev nD) (t : Fin cfg1.N) : iblk1 V c 4 t = (V c main_arg7 : FVec Ideal S64x128 .f32) := by
  have e := idx t
  funext y
  show V c main_arg7 (((cfg1.win 4).blk t).view.emb y) = V c main_arg7 y
  congr 1
  funext a; apply Fin.ext
  match a with
  | ⟨0, _⟩ => show win1_4.index t (0 : Fin 2) * 64 + 1 * (y 0).val = (y 0).val; omega
  | ⟨1, _⟩ => show win1_4.index t (1 : Fin 2) * 128 + 1 * (y 1).val = (y 1).val; omega

/-- Every point's block of the fusion's bias row is the whole row. -/
theorem blk_bf (c : Dev nD) (t : Fin cfg1.N) : iblk1 V c 5 t = (V c main_v17 : FVec Ideal S1x64 .f32) := by
  have e := idx t
  funext y
  show V c main_v17 (((cfg1.win 5).blk t).view.emb y) = V c main_v17 y
  congr 1
  funext a; apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Every point's block of `W_up` is the whole matrix. -/
theorem blk_wu (c : Dev nD) (t : Fin cfg1.N) : iblk1 V c 6 t = (V c main_arg9 : FVec Ideal S256x64 .f32) := by
  have e := idx t
  funext y
  show V c main_arg9 (((cfg1.win 6).blk t).view.emb y) = V c main_arg9 y
  congr 1
  funext a; apply Fin.ext
  match a with
  | ⟨0, _⟩ => show win1_6.index t (0 : Fin 2) * 256 + 1 * (y 0).val = (y 0).val; omega
  | ⟨1, _⟩ => show win1_6.index t (1 : Fin 2) * 64 + 1 * (y 1).val = (y 1).val; omega

/-- Every point's block of the up-projection's bias row is the whole row. -/
theorem blk_bu (c : Dev nD) (t : Fin cfg1.N) : iblk1 V c 7 t = (V c main_v18 : FVec Ideal S1x256 .f32) := by
  have e := idx t
  funext y
  show V c main_v18 (((cfg1.win 7).blk t).view.emb y) = V c main_v18 y
  congr 1
  funext a; apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega

/-- What point `t` writes back is its block of `Spec.fusion` of the arrays the region finds. -/
theorem flushed_eq (c : Dev nD) (bd bf : FVec Ideal S64 .f32) (bu : FVec Ideal S256 .f32)
    (hbd : (V c main_v16 : FVec Ideal S1x64 .f32) = shapeCast S1x64 bd shapeCasts_S64_S1x64)
    (hbf : (V c main_v17 : FVec Ideal S1x64 .f32) = shapeCast S1x64 bf shapeCasts_S64_S1x64)
    (hbu : (V c main_v18 : FVec Ideal S1x256 .f32) = shapeCast S1x256 bu shapeCasts_S256_S1x256) (t : Fin cfg1.N) :
    (dat1 V c).flushed 8 t
      = ((cfg1.win 8).blk t).view.read (Elt Ideal)
          (Spec.fusion (V c main_arg0) (V c main_v15) (V c main_arg3) bd (V c main_arg7) bf (V c main_arg9) bu) := by
  show (cfg1.win 8).cut (grid1.coords t) ((dat1 V c).after 8 t) = _
  rw [after1_8]
  unfold out1_8
  rw [View.canon_unit_zero zero_offsets]
  simp only [View.ld_unit_zero (S := S2000x256) zero_offsets, View.ld_unit_zero (S := S2000x64) zero_offsets,
    View.ld_unit_zero (S := S64x256) zero_offsets, View.ld_unit_zero (S := S1x64) zero_offsets,
    View.ld_unit_zero (S := S64x128) zero_offsets, View.ld_unit_zero (S := S256x64) zero_offsets,
    View.ld_unit_zero (S := S1x256) zero_offsets]
  funext y
  obtain ⟨p, q, rfl⟩ : ∃ (p : Fin 2000) (q : Fin 256), y = ix2 p q := ⟨y 0, y 1, eq_ix2 y⟩
  have ht : t.val < 25 := npoints ▸ t.isLt
  have hr : 2000 * t.val + p.val < 50000 := by have := p.isLt; omega
  have e := idx t
  show k1_pay1 (iblk1 V c 0 t) (iblk1 V c 1 t) (iblk1 V c 2 t) (iblk1 V c 3 t) (iblk1 V c 4 t) (iblk1 V c 5 t) (iblk1 V c 6 t) (iblk1 V c 7 t) (ix2 p q)
    = Spec.fusion (V c main_arg0) (V c main_v15) (V c main_arg3) bd (V c main_arg7) bf (V c main_arg9) bu (((cfg1.win 8).blk t).view.emb (ix2 p q))
  refine (body_rows t.val (V c main_arg0) (V c main_v15) (V c main_arg3) bd (V c main_arg7) bf (V c main_arg9) bu
    (iblk1 V c 0 t) (iblk1 V c 1 t) (iblk1 V c 2 t) (iblk1 V c 3 t) (iblk1 V c 4 t) (iblk1 V c 5 t) (iblk1 V c 6 t) (iblk1 V c 7 t)
    (blk_x V c t) (blk_nt V c t) (blk_wd V c t) ((blk_bd V c t).trans hbd) (blk_wf V c t) ((blk_bf V c t).trans hbf)
    (blk_wu V c t) ((blk_bu V c t).trans hbu) p q ⟨2000 * t.val + p.val, hr⟩ rfl).trans ?_
  congr 1
  funext a; apply Fin.ext
  match a with
  | ⟨0, _⟩ => show 2000 * t.val + p.val = win1_8.index t (0 : Fin 2) * 2000 + 1 * p.val; omega
  | ⟨1, _⟩ => show q.val = win1_8.index t (1 : Fin 2) * 256 + 1 * q.val; omega

/-- An index of the result is in point `t`'s block iff each coordinate is in the block's range. -/
theorem mem_blk (t : Fin cfg1.N) (i : S50000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v19).slice (win1_8.rect t)).set ↔ _
  rw [View.set_slice_whole, Rect.mem_set_unit]
  exact Iff.rfl

/-- Row `r` of the result is in the block of point `r / 2000`. -/
theorem cover (i : S50000x256.Idx) : ∃ t : Fin cfg1.N, (cfg1.win 8).flush t = true ∧ i ∈ ((cfg1.win 8).blk t).view.set := by
  have hi0 : (i 0).val < 50000 := (i 0).isLt
  have hi1 : (i 1).val < 256 := (i 1).isLt
  have hN : (i 0).val / 2000 < cfg1.N := by rw [npoints]; omega
  refine ⟨⟨(i 0).val / 2000, hN⟩, flush1_8 _, ?_⟩
  rw [mem_blk]
  have e := idx ⟨(i 0).val / 2000, hN⟩
  obtain ⟨-, -, -, -, -, -, -, -, -, -, -, -, -, -, -, -, e16, e17⟩ := e
  intro a
  match a with
  | ⟨0, _⟩ =>
    show win1_8.index ⟨(i 0).val / 2000, hN⟩ (0 : Fin 2) * 2000 ≤ (i 0).val ∧ (i 0).val < win1_8.index ⟨(i 0).val / 2000, hN⟩ (0 : Fin 2) * 2000 + 2000
    rw [e16]; show (i 0).val / 2000 * 2000 ≤ (i 0).val ∧ (i 0).val < (i 0).val / 2000 * 2000 + 2000; omega
  | ⟨1, _⟩ =>
    show win1_8.index ⟨(i 0).val / 2000, hN⟩ (1 : Fin 2) * 256 ≤ (i 1).val ∧ (i 1).val < win1_8.index ⟨(i 0).val / 2000, hN⟩ (1 : Fin 2) * 256 + 256
    rw [e17]; omega

/-- After the region the result array holds `Spec.fusion` of the arrays the region found. -/
theorem final (c : Dev nD) (bd bf : FVec Ideal S64 .f32) (bu : FVec Ideal S256 .f32)
    (hbd : (V c main_v16 : FVec Ideal S1x64 .f32) = shapeCast S1x64 bd shapeCasts_S64_S1x64)
    (hbf : (V c main_v17 : FVec Ideal S1x64 .f32) = shapeCast S1x64 bf shapeCasts_S64_S1x64)
    (hbu : (V c main_v18 : FVec Ideal S1x256 .f32) = shapeCast S1x256 bu shapeCasts_S256_S1x256) :
    (dat1 V c).arrAt 8 cfg1.N
      = Spec.fusion (V c main_arg0) (V c main_v15) (V c main_arg3) bd (V c main_arg7) bf (V c main_arg9) bu :=
  (dat1 V c).arrAt_eq_of_cover 8 _ (fun t _ => flushed_eq V c bd bf bu hbd hbf hbu t) cover

end Cert.KernelIdeal.Fusion

end
-- ==== Proof.Glue.lean ====
import proofs.«106499_j30674656428557_1_alg».proof.Proof.Gen.KernelIdeal.Frame
import proofs.«106499_j30674656428557_1_alg».proof.Proof.Spec
import proofs.«106499_j30674656428557_1_alg».proof.Proof.Region0
import proofs.«106499_j30674656428557_1_alg».proof.Proof.Region1
import Idealize.ShloMosaic.Lib.StableHlo.Run
import Idealize.ShloMosaic.PureOps.Ideal

/-!
The idealized kernel's program from the launch to the return, as one function of the arguments.

The program is: a reshape of `b_time`; the first region (`Spec.timeFeat` of the edge attributes, written to an
array of one row per edge); the host's scatter-sums, count and quotient over that array (`Spec.nodeTime`) and three
reshapes of bias vectors; the second region (`Spec.fusion`). Reading the arrays at each region's entry back to the
launch memory — a region changes only its output array, a host operation only its result — the result array ends at
`Spec.result` of the arguments.
-/

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## What the first region finds -/

theorem entry0_ea (c : Dev nD) : V1 m ρ c main_arg2 = m ((c : Thread nD τ).loc main_arg2) := by
  dsimp only [V1, W1, hostOps0]; after_results
theorem entry0_wt (c : Dev nD) : V1 m ρ c main_arg5 = m ((c : Thread nD τ).loc main_arg5) := by
  dsimp only [V1, W1, hostOps0]; after_results
/-- The bias row is `b_time` laid out as a one-row matrix. -/
theorem entry0_bt (c : Dev nD) :
    (V1 m ρ c main_v0 : FVec Ideal S1x64 .f32) = shapeCast S1x64 (m ((c : Thread nD τ).loc main_arg6)) shapeCasts_S64_S1x64 := by
  dsimp only [V1, W1, hostOps0]; after_results; rfl

/-- After the first region its result array holds `Spec.timeFeat` of the arguments. -/
theorem timeFeat_eq (c : Dev nD) :
    W2 m ρ c (Proc.devRef .tc main_v1) = Spec.timeFeat (m ((c : Thread nD τ).loc main_arg2)) (m ((c : Thread nD τ).loc main_arg5)) (m ((c : Thread nD τ).loc main_arg6)) := by
  have h := TimeProj.final (V1 m ρ) c (m ((c : Thread nD τ).loc main_arg6)) (entry0_bt m ρ c)
  rw [entry0_ea, entry0_wt] at h
  exact (W2_arr m ρ c 3).trans h

/-! ## What the host operations between the regions read: arguments the first region does not write -/

theorem mid_ei (c : Dev nD) : W2 m ρ c (Proc.devRef .tc main_arg1) = m ((c : Thread nD τ).loc main_arg1) :=
  (W2_of_ne m ρ c main_arg1 (by decide)).trans (by dsimp only [W1, hostOps0]; after_results)
theorem mid_bd (c : Dev nD) : W2 m ρ c (Proc.devRef .tc main_arg4) = m ((c : Thread nD τ).loc main_arg4) :=
  (W2_of_ne m ρ c main_arg4 (by decide)).trans (by dsimp only [W1, hostOps0]; after_results)
theorem mid_bf (c : Dev nD) : W2 m ρ c (Proc.devRef .tc main_arg8) = m ((c : Thread nD τ).loc main_arg8) :=
  (W2_of_ne m ρ c main_arg8 (by decide)).trans (by dsimp only [W1, hostOps0]; after_results)
theorem mid_bu (c : Dev nD) : W2 m ρ c (Proc.devRef .tc main_arg10) = m ((c : Thread nD τ).loc main_arg10) :=
  (W2_of_ne m ρ c main_arg10 (by decide)).trans (by dsimp only [W1, hostOps0]; after_results)

/-! ## What the second region finds -/

/-- The per-node means: the host's scatter-sums and quotient over the first region's result. -/
theorem entry1_nt (c : Dev nD) :
    V3 m ρ c main_v15 = Spec.nodeTime (m ((c : Thread nD τ).loc main_arg1)) (Spec.timeFeat (m ((c : Thread nD τ).loc main_arg2)) (m ((c : Thread nD τ).loc main_arg5)) (m ((c : Thread nD τ).loc main_arg6))) := by
  have h : V3 m ρ c main_v15
      = Spec.nodeTime (W2 m ρ c (Proc.devRef .tc main_arg1)) (W2 m ρ c (Proc.devRef .tc main_v1)) := by
    dsimp only [V3, W3, hostOps1]; after_results; rfl
  rw [h, mid_ei, timeFeat_eq]

theorem entry1_bd (c : Dev nD) :
    (V3 m ρ c main_v16 : FVec Ideal S1x64 .f32) = shapeCast S1x64 (m ((c : Thread nD τ).loc main_arg4)) shapeCasts_S64_S1x64 := by
  have h : (V3 m ρ c main_v16 : FVec Ideal S1x64 .f32)
      = shapeCast S1x64 (W2 m ρ c (Proc.devRef .tc main_arg4)) shapeCasts_S64_S1x64 := by
    dsimp only [V3, W3, hostOps1]; after_results; rfl
  rw [h, mid_bd]
theorem entry1_bf (c : Dev nD) :
    (V3 m ρ c main_v17 : FVec Ideal S1x64 .f32) = shapeCast S1x64 (m ((c : Thread nD τ).loc main_arg8)) shapeCasts_S64_S1x64 := by
  have h : (V3 m ρ c main_v17 : FVec Ideal S1x64 .f32)
      = shapeCast S1x64 (W2 m ρ c (Proc.devRef .tc main_arg8)) shapeCasts_S64_S1x64 := by
    dsimp only [V3, W3, hostOps1]; after_results; rfl
  rw [h, mid_bf]
theorem entry1_bu (c : Dev nD) :
    (V3 m ρ c main_v18 : FVec Ideal S1x256 .f32) = shapeCast S1x256 (m ((c : Thread nD τ).loc main_arg10)) shapeCasts_S256_S1x256 := by
  have h : (V3 m ρ c main_v18 : FVec Ideal S1x256 .f32)
      = shapeCast S1x256 (W2 m ρ c (Proc.devRef .tc main_arg10)) shapeCasts_S256_S1x256 := by
    dsimp only [V3, W3, hostOps1]; after_results; rfl
  rw [h, mid_bu]

/-- An argument the second region reads through an input window: the region leaves it as it found it, and it ends
    as launched, so it was found as launched. -/
theorem entry1_x (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem entry1_wd (c : Dev nD) : V3 m ρ c main_arg3 = m ((c : Thread nD τ).loc main_arg3) :=
  ((W4_arr m ρ c 2).trans (((dat1 (V3 m ρ) c).arrAt_in 2 rfl _).trans (A_eq1 (V3 m ρ) c 2))).symm.trans (W4_main_arg3 m ρ c)
theorem entry1_wf (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)
theorem entry1_wu (c : Dev nD) : V3 m ρ c main_arg9 = m ((c : Thread nD τ).loc main_arg9) :=
  ((W4_arr m ρ c 6).trans (((dat1 (V3 m ρ) c).arrAt_in 6 rfl _).trans (A_eq1 (V3 m ρ) c 6))).symm.trans (W4_main_arg9 m ρ c)

/-! ## The result -/

/-- At the return the result array holds `Spec.result` of the arguments. -/
theorem result_eq (c : Dev nD) :
    W4 m ρ c (Proc.devRef .tc main_v19)
      = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := Fusion.final (V3 m ρ) c (m ((c : Thread nD τ).loc main_arg4)) (m ((c : Thread nD τ).loc main_arg8)) (m ((c : Thread nD τ).loc main_arg10)) (entry1_bd m ρ c) (entry1_bf m ρ c) (entry1_bu m ρ c)
  rw [entry1_x, entry1_nt, entry1_wd, entry1_wf, entry1_wu] at h
  exact (W4_arr m ρ c 8).trans h

end Cert.KernelIdeal.Whole

end
-- ==== Proof.lean ====
/-
  A graph layer with a bottleneck adapter, its Pallas implementation against its jnp reference, over the extended reals.

  Both programs compute, for every node `v` with feature row `x_v`:

      t_e    = relu (edge_attr_e · W_timeᵀ + b_time)                          for every edge e
      n_v    = (∑ over the edges e leaving v of t_e) / max (number of such edges, 1)
      out_v  = x_v + (relu ([relu (x_v · W_downᵀ + b_down) | n_v] · W_fusionᵀ + b_fusion) · W_upᵀ + b_up)

  The reference spells this with whole-array operations. The kernel's program computes `t` in a first region, 16 000
  edge rows per grid point; the sums, counts and quotient `n` with the very operations the reference uses, on the host;
  and `out` in a second region, 2 000 node rows per grid point. Its roundings to bf16 on the way into each product are
  the identity on extended reals, and a product into a zero accumulator is the plain sum over the shared axis. Every
  operation of the two bodies computes a row of its result from the same rows of its operands, so each grid point
  writes exactly its row block of the whole-array function, and the blocks tile the arrays: after each region its
  result array holds the reference's own term (`Spec.timeFeat`, `Spec.fusion`) of the arrays the region found. No
  sum is regrouped and nothing is cancelled, so the equality needs no finiteness: the precondition is never opened.

  The three frames are the generated ones (for the reference, its generated run with the result dropped); the
  idealization rewrote nothing, so `preserves` is trivial.
-/
import proofs.«106499_j30674656428557_1_alg».proof.Defs
import proofs.«106499_j30674656428557_1_alg».proof.Proof.Gen.Kernel
import proofs.«106499_j30674656428557_1_alg».proof.Proof.Gen.Kernel.Skeleton
import proofs.«106499_j30674656428557_1_alg».proof.Proof.Gen.Kernel.Launch
import proofs.«106499_j30674656428557_1_alg».proof.Proof.Gen.Kernel.Points
import proofs.«106499_j30674656428557_1_alg».proof.Proof.Gen.Kernel.Frame
import proofs.«106499_j30674656428557_1_alg».proof.Proof.Gen.KernelIdeal
import proofs.«106499_j30674656428557_1_alg».proof.Proof.Gen.KernelIdeal.Skeleton
import proofs.«106499_j30674656428557_1_alg».proof.Proof.Gen.KernelIdeal.Launch
import proofs.«106499_j30674656428557_1_alg».proof.Proof.Gen.KernelIdeal.Points
import proofs.«106499_j30674656428557_1_alg».proof.Proof.Gen.KernelIdeal.Frame
import proofs.«106499_j30674656428557_1_alg».proof.Proof.Gen.ReferenceIdeal
import proofs.«106499_j30674656428557_1_alg».proof.Proof.Gen.ReferenceIdeal.Run
import proofs.«106499_j30674656428557_1_alg».proof.Proof.Gen.Pre_finite_inputs
import proofs.«106499_j30674656428557_1_alg».proof.Proof.Spec
import proofs.«106499_j30674656428557_1_alg».proof.Proof.KernelRun
import proofs.«106499_j30674656428557_1_alg».proof.Proof.Glue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `Spec.result` of the arguments: the kernel's by the two regions' row
    blocks and the host operations between them, the reference's because `Spec.result` is its run's own term. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    (θ_run Cert.KernelIdeal.defs _ _).mono (fun r h c => ⟨(h c).1.trans (Cert.KernelIdeal.Whole.result_eq m ρ c), (h c).2⟩)
      (Cert.KernelIdeal.Named.run m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
